-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000000 : Shape := ⟨2, ![8, 2000000]⟩
abbrev S4x8 : Shape := ⟨2, ![4, 8]⟩
abbrev S_ : Shape := ⟨0, ![]⟩

class Facts : Prop where
  bcast_S_S8x2000000 : S_.BroadcastsInDim S8x2000000 (![] : Fin 0 → Fin S8x2000000.rank)
  reducesTo_S8x2000000_S_d0_1 : S8x2000000.ReducesTo [0, 1] S_
  h_S_ : 0 < S_.numel
  bcast_S_S4x8 : S_.BroadcastsInDim S4x8 (![] : Fin 0 → Fin S4x8.rank)
  reducesTo_S4x8_S_d0_1 : S4x8.ReducesTo [0, 1] S_

variable [Facts]

def fn {F : FTy → Type} [FloatOps F] (main_arg0 : FVec F S8x2000000 .f32) (main_arg1 : FVec F S4x8 .f32) : IVec S_ 1 :=
  let main_v0 : FVec F S8x2000000 .f32 := Host.absf main_arg0
  let main_cst : FVec F S_ .f32 := constant S_ .f32 0x7F800000#32
  let main_v1 : FVec F S8x2000000 .f32 := broadcastInDim S8x2000000 ![] bcast_S_S8x2000000 main_cst
  let main_v2 : IVec S8x2000000 1 := cmpf .olt main_v0 main_v1
  let main_c : IVec S_ 1 := constantI S_ 1 1#1
  let main_v3 : IVec S_ 1 := (fun x v => Host.reduce IntOp.andi x v reducesTo_S8x2000000_S_d0_1 h_S_) main_v2 main_c
  let main_v4 : FVec F S4x8 .f32 := Host.absf main_arg1
  let main_cst_0 : FVec F S_ .f32 := constant S_ .f32 0x7F800000#32
  let main_v5 : FVec F S4x8 .f32 := broadcastInDim S4x8 ![] bcast_S_S4x8 main_cst_0
  let main_v6 : IVec S4x8 1 := cmpf .olt main_v4 main_v5
  let main_c_1 : IVec S_ 1 := constantI S_ 1 1#1
  let main_v7 : IVec S_ 1 := (fun x v => Host.reduce IntOp.andi x v reducesTo_S4x8_S_d0_1 h_S_) main_v6 main_c_1
  let main_v8 : IVec S_ 1 := andi main_v3 main_v7
  main_v8
-- ==== Kernel.lean ====
abbrev S8x2000000 : Shape := ⟨2, ![8, 2000000]⟩
abbrev S4x8 : Shape := ⟨2, ![4, 8]⟩
abbrev S_ : Shape := ⟨0, ![]⟩
abbrev S4 : Shape := ⟨1, ![4]⟩
abbrev S4x1 : Shape := ⟨2, ![4, 1]⟩
abbrev S4x8x2000000 : Shape := ⟨3, ![4, 8, 2000000]⟩
abbrev S8x80000 : Shape := ⟨2, ![8, 80000]⟩
abbrev S4x8x80000 : Shape := ⟨3, ![4, 8, 80000]⟩
abbrev S4x8x1 : Shape := ⟨3, ![4, 8, 1]⟩
abbrev S1x8x80000 : Shape := ⟨3, ![1, 8, 80000]⟩

abbrev nBuf : Space → Nat
  | .hbm => 17
  | .vmem => 5
  | .smem => 0
  | _ => 0

abbrev bufTy : (tb : Table) → Fin (tcTables nBuf tb) → BufTy
  | .hbm, ⟨0, _⟩ => ⟨S8x2000000, .f32⟩
  | .hbm, ⟨1, _⟩ => ⟨S4x8, .f32⟩
  | .hbm, ⟨2, _⟩ => ⟨S_, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S4x1, .f32⟩
  | .hbm, ⟨8, _⟩ => ⟨S4x8, .f32⟩
  | .hbm, ⟨9, _⟩ => ⟨S4x8, .f32⟩
  | .hbm, ⟨10, _⟩ => ⟨S4x8, .f32⟩
  | .hbm, ⟨11, _⟩ => ⟨S_, .f32⟩
  | .hbm, ⟨12, _⟩ => ⟨S4, .f32⟩
  | .hbm, ⟨13, _⟩ => ⟨S4x1, .f32⟩
  | .hbm, ⟨14, _⟩ => ⟨S4x8, .f32⟩
  | .hbm, ⟨15, _⟩ => ⟨S4x8, .f32⟩
  | .hbm, ⟨16, _⟩ => ⟨S4x8x2000000, .f32⟩
  | .local _ .vmem, ⟨0, _⟩ => ⟨S4x8, .f32⟩
  | .local _ .vmem, ⟨1, _⟩ => ⟨S8x80000, .f32⟩
  | .local _ .vmem, ⟨2, _⟩ => ⟨S8x80000, .f32⟩
  | .local _ .vmem, ⟨3, _⟩ => ⟨S4x8x80000, .f32⟩
  | .local _ .vmem, ⟨4, _⟩ => ⟨S4x8x80000, .f32⟩
  | _, _ => ⟨S8x2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4x8_S4_d1 : S4x8.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S8x80000_S8x80000_0_0 : ∀ a, (![0, 0] : Fin 2 → Nat) a + S8x80000.size a ≤ S8x80000.size a
  h_S8x80000 : 0 < S8x80000.numel
  shapeCasts_S4x8_S4x8x1 : S4x8.ShapeCasts S4x8x1
  shapeCasts_S8x80000_S1x8x80000 : S8x80000.ShapeCasts S1x8x80000
  broadcasts_S4x8x1_S4x8x80000 : S4x8x1.Broadcasts S4x8x80000
  broadcasts_S1x8x80000_S4x8x80000 : S1x8x80000.Broadcasts S4x8x80000
  inb_S4x8x80000_S4x8x80000_0_0_0 : ∀ a, (![0, 0, 0] : Fin 3 → Nat) a + S4x8x80000.size a ≤ S4x8x80000.size a
  h_S4x8x80000 : 0 < S4x8x80000.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8.size a ≤ S4x8.size a
  hwx0_0 : ∀ i : grid0.Coords, EltTy.bits .f32 = 32 ∨ (Rect.block (s := S4x8) S4x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80000.size a ≤ S8x2000000.size a
  hwx0_1 : ∀ i : grid0.Coords, EltTy.bits .f32 = 32 ∨ (Rect.block (s := S8x2000000) S8x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x80000.size a ≤ S4x8x2000000.size a
  hwx0_2 : ∀ i : grid0.Coords, EltTy.bits .f32 = 32 ∨ (Rect.block (s := S4x8x2000000) S4x8x80000.size (cc0_transform_2 i) (hinb0_2 i)).WholeWords (EltTy.packing .f32)

variable [Facts₀]

abbrev win0_0 : Pipeline.Window sig grid0 :=
  Pipeline.Window.ofSpec (Memref.whole main_v10) S4x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4x8x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2000000 : Shape := ⟨2, ![8, 2000000]⟩
abbrev S4x8 : Shape := ⟨2, ![4, 8]⟩
abbrev S_ : Shape := ⟨0, ![]⟩
abbrev S4 : Shape := ⟨1, ![4]⟩
abbrev S4x1 : Shape := ⟨2, ![4, 1]⟩
abbrev S4x8x1 : Shape := ⟨3, ![4, 8, 1]⟩
abbrev S1x8x2000000 : Shape := ⟨3, ![1, 8, 2000000]⟩
abbrev S4x8x2000000 : Shape := ⟨3, ![4, 8, 2000000]⟩

abbrev nBuf : Space → Nat
  | .hbm => 21
  | .vmem => 0
  | .smem => 0
  | _ => 0

abbrev bufTy : (tb : Table) → Fin (tcTables nBuf tb) → BufTy
  | .hbm, ⟨0, _⟩ => ⟨S8x2000000, .f32⟩
  | .hbm, ⟨1, _⟩ => ⟨S4x8, .f32⟩
  | .hbm, ⟨2, _⟩ => ⟨S_, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S4x1, .f32⟩
  | .hbm, ⟨8, _⟩ => ⟨S4x8, .f32⟩
  | .hbm, ⟨9, _⟩ => ⟨S4x8, .f32⟩
  | .hbm, ⟨10, _⟩ => ⟨S4x8, .f32⟩
  | .hbm, ⟨11, _⟩ => ⟨S_, .f32⟩
  | .hbm, ⟨12, _⟩ => ⟨S4, .f32⟩
  | .hbm, ⟨13, _⟩ => ⟨S4x1, .f32⟩
  | .hbm, ⟨14, _⟩ => ⟨S4x8, .f32⟩
  | .hbm, ⟨15, _⟩ => ⟨S4x8, .f32⟩
  | .hbm, ⟨16, _⟩ => ⟨S4x8x1, .f32⟩
  | .hbm, ⟨17, _⟩ => ⟨S1x8x2000000, .f32⟩
  | .hbm, ⟨18, _⟩ => ⟨S4x8x2000000, .f32⟩
  | .hbm, ⟨19, _⟩ => ⟨S4x8x2000000, .f32⟩
  | .hbm, ⟨20, _⟩ => ⟨S4x8x2000000, .f32⟩
  | _, _ => ⟨S8x2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S4x8_S4_d1 : S4x8.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  bcast_S4x8_S4x8x1_0_1 : S4x8.BroadcastsInDim S4x8x1 (![0, 1] : Fin 2 → Fin S4x8x1.rank)
  bcast_S8x2000000_S1x8x2000000_1_2 : S8x2000000.BroadcastsInDim S1x8x2000000 (![1, 2] : Fin 2 → Fin S1x8x2000000.rank)
  bcast_S4x8x1_S4x8x2000000_0_1_2 : S4x8x1.BroadcastsInDim S4x8x2000000 (![0, 1, 2] : Fin 3 → Fin S4x8x2000000.rank)
  bcast_S1x8x2000000_S4x8x2000000_0_1_2 : S1x8x2000000.BroadcastsInDim S4x8x2000000 (![0, 1, 2] : Fin 3 → Fin S4x8x2000000.rank)

variable [Facts₀]

class Facts : Prop extends Facts₀ where

variable [Facts]
-- ==== Proof.Mix.lean ====
/-
  The relation-mixing product.

  There are 8 relation graphs over one list of 2,000,000 edges, `w[r, e]` the weight of edge `e` in graph `r`, and
  4 output channels, `f[c, r]` the coefficient with which channel `c` takes graph `r`. The mixed weights are
      out[c, r, e] = f[c, r] · w[r, e],
  every graph's edge list scaled, channel by channel, by one coefficient. No sum is taken, so nothing here depends on
  an order of operations: each entry of the result is ONE product of extended reals.
-/
import Idealize.ShloMosaic.Lib.ValueIdx
import Idealize.ShloMosaic.PureOps.Ideal

noncomputable section

namespace Cert.Mix

open Idealize.ShloMosaic Idealize.ShloMosaic.ValueIdx

/-- The coefficients' shape, channels by graphs. -/
abbrev Coef : Shape := ⟨2, ![4, 8]⟩
/-- The edge weights' shape, graphs by edges. -/
abbrev Edges : Shape := ⟨2, ![8, 2000000]⟩
/-- The mixed weights' shape, channels by graphs by edges. -/
abbrev Mixed : Shape := ⟨3, ![4, 8, 2000000]⟩

/-- The mixed weights: at `(c, r, e)` the coefficient `f (c, r)` times the weight `w (r, e)`. -/
def mix (f : FVec Ideal Coef .f32) (w : FVec Ideal Edges .f32) : FVec Ideal Mixed .f32 :=
  fun i => f (ix2 (i 0 : Fin 4) (i 1 : Fin 8)) * w (ix2 (i 1 : Fin 8) (i 2 : Fin 2000000))

/-- The mixed weights read at coordinates. -/
theorem mix_apply (f : FVec Ideal Coef .f32) (w : FVec Ideal Edges .f32) (c : Fin 4) (r : Fin 8) (e : Fin 2000000) :
    mix f w (ix3 c r e) = f (ix2 c r) * w (ix2 r e) := rfl

end Cert.Mix

end
-- ==== Proof.KernelBlock.lean ====
/-
  What one grid point of the kernel writes back, as a block of the relation-mixing product.

  The kernel cuts the 2,000,000 edges into 25 tiles of 80,000. At tile `t` it holds the whole `[4, 8]` coefficient
  array `f` and the `[8, 80000]` slab of edge weights `w[:, 80000·t : 80000·(t+1)]`, and stores
      f[:, :, None] * slab[None, :, :]
  as the `[4, 8, 80000]` block of the result over the same edges. Entry `(c, r, e')` of the stored block is
  `f (c, r) · slab (r, e')`, and `slab (r, e') = w (r, 80000·t + e')`: so the block IS the block of
  `mix f w` (Proof/Mix.lean) over tile `t`. The coefficient array `f` is what the host part of the program left in
  its buffer before the call; here it is only named (`coef`), not opened.
-/
import proofs.«148289_j5111011083066_1_alg».proof.Proof.Gen.KernelIdeal.Value
import proofs.«148289_j5111011083066_1_alg».proof.Proof.Mix
import Idealize.ShloMosaic.Lib.Pipeline.Value
import Idealize.ShloMosaic.Lib.ValueIdx

set_option maxRecDepth 16384

noncomputable section

namespace Cert.KernelIdeal.MixValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The coefficients `f` as the call finds them: the buffer the host's softmax wrote. -/
abbrev coef (c : Dev nD) : FVec Ideal S4x8 .f32 := V m c main_v10
/-- The edge weights `w` as the call finds them. -/
abbrev edges (c : Dev nD) : FVec Ideal S8x2000000 .f32 := V m c main_arg0

/-- The coefficient window's block at any tile is read off `coef`. -/
theorem coef_block (c : Dev nD) (t : Fin cfg0.N) (y : S4x8.Idx) :
    iblk m c 0 t y = coef m c (((cfg0.win 0).blk t).view.emb y) := rfl
/-- The edge window's block at tile `t` is read off `edges`. -/
theorem edge_block (c : Dev nD) (t : Fin cfg0.N) (y : S8x80000.Idx) :
    iblk m c 1 t y = edges m c (((cfg0.win 1).blk t).view.emb y) := rfl

theorem zero2 : (![0, 0] : Fin 2 → Nat) = fun _ => 0 := funext fun a => by fin_cases a <;> rfl

/-- One stored block, entry by entry: at `(c, r, e')` the coefficient `(c, r)` times the slab's weight `(r, e')`. -/
theorem block_entry (x0 : Vec Ideal S4x8 .f32) (x1 : Vec Ideal S8x80000 .f32) (y : S4x8x80000.Idx) :
    out0_2 x0 x1 y = x0 (Value.ix2_0 y) * x1 (Value.ix2_1 y) := by
  unfold out0_2
  rw [Value.canon2_eq]
  simp only [View.ld_unit_zero (S := S4x8) zero2, View.ld_unit_zero (S := S8x80000) zero2]
  rfl

/-- The printed index maps, decided over the 25 tiles: the coefficient window stays at block `(0, 0)`, the edge window
    and the result window sit at block `t` of the edge axis and at block `0` of the others. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_2.index t (2 : Fin 3)
    ∧ win0_2.index t (0 : Fin 3) = 0 ∧ win0_2.index t (1 : Fin 3) = 0 ∧ win0_2.index t (2 : Fin 3) ≤ 24 :=
  (by decide +kernel : ∀ t : Fin grid0.N, _)

/-- WHAT TILE `t` WRITES BACK is block `t` of the mixing product of the coefficients and the edge weights. -/
theorem flushed_eq (c : Dev nD) (t : Fin cfg0.N) :
    (dats m 0 c).flushed 2 t = ((cfg0.win 2).blk t).view.read (Elt Ideal) (Cert.Mix.mix (coef m c) (edges m c)) := by
  rw [Value.flushed2]
  obtain ⟨a0, a1, b0, b1, c0, c1, c2⟩ := idx_facts t
  funext j
  show out0_2 (iblk m c 0 t) (iblk m c 1 t) j = Cert.Mix.mix (coef m c) (edges m c) (((cfg0.win 2).blk t).view.emb j)
  refine (block_entry (iblk m c 0 t) (iblk m c 1 t) j).trans ?_
  rw [coef_block, edge_block]
  have h0 : ((cfg0.win 0).blk t).view.emb (Value.ix2_0 j)
      = ix2 ((((cfg0.win 2).blk t).view.emb j) 0 : Fin 4) ((((cfg0.win 2).blk t).view.emb j) 1 : Fin 8) := by
    funext a; apply Fin.ext
    match a with
    | ⟨0, _⟩ => show win0_0.index t (0 : Fin 2) * 4 + 1 * (j 0).val = win0_2.index t (0 : Fin 3) * 4 + 1 * (j 0).val; omega
    | ⟨1, _⟩ => show win0_0.index t (1 : Fin 2) * 8 + 1 * (j 1).val = win0_2.index t (1 : Fin 3) * 8 + 1 * (j 1).val; omega
  have h1 : ((cfg0.win 1).blk t).view.emb (Value.ix2_1 j)
      = ix2 ((((cfg0.win 2).blk t).view.emb j) 1 : Fin 8) ((((cfg0.win 2).blk t).view.emb j) 2 : Fin 2000000) := by
    funext a; apply Fin.ext
    match a with
    | ⟨0, _⟩ => show win0_1.index t (0 : Fin 2) * 8 + 1 * (j 1).val = win0_2.index t (1 : Fin 3) * 8 + 1 * (j 1).val; omega
    | ⟨1, _⟩ => show win0_1.index t (1 : Fin 2) * 80000 + 1 * (j 2).val = win0_2.index t (2 : Fin 3) * 80000 + 1 * (j 2).val; omega
  rw [h0, h1]
  rfl

end Cert.KernelIdeal.MixValue

end
-- ==== Proof.KernelArray.lean ====
/-
  The kernel's result array, whole: the relation-mixing product of the host's softmax coefficients and the edge weights.

  The 25 tiles of 80,000 edges tile the 2,000,000 edges exactly (edge `e` lies in tile `e / 80000`), and every tile
  writes its block back, so after the call every entry of the result has been written by exactly the tile over its
  edge, with the value Proof/KernelBlock.lean reads there: the array is `mix f w`. The coefficients `f` the call finds
  are what the host operations before it computed from the `weight` argument, the row softmax; both programs compute
  it by the same fourteen operations, so it is carried as ONE function (the reference's stage `val_main_v10`) and never
  opened. The coefficient buffer is only read by the call, so it still holds `f` afterwards: the second result.
-/
import proofs.«148289_j5111011083066_1_alg».proof.Proof.KernelBlock
import proofs.«148289_j5111011083066_1_alg».proof.Proof.Gen.ReferenceIdeal.Read
import Idealize.ShloMosaic.Lib.StableHlo.Run

set_option maxRecDepth 16384

noncomputable section

namespace Cert.KernelIdeal.MixValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The tiles cover the result -/

/-- An index of the result is in tile `t`'s block iff each coordinate is in the block's range on its axis. -/
theorem mem_blk (t : Fin cfg0.N) (i : S4x8x2000000.Idx) :
    i ∈ ((cfg0.win 2).blk t).view.set ↔ ∀ a : Fin 3, win0_2.index t a * S4x8x80000.size a ≤ (i a).val ∧ (i a).val < win0_2.index t a * S4x8x80000.size a + S4x8x80000.size a := by
  show i ∈ ((View.whole main_v11).slice (win0_2.rect t)).set ↔ _
  rw [View.set_slice_whole, Rect.mem_set_unit]
  exact Iff.rfl

/-- Every block of the edge axis is some tile's (decided over the 25 tiles). -/
theorem idx_onto : ∀ q : Fin 25, ∃ t : Fin cfg0.N, win0_2.index t = ![0, 0, q.val] :=
  (by decide +kernel : ∀ q : Fin 25, ∃ t : Fin grid0.N, win0_2.index t = ![0, 0, q.val])

/-- Every entry of the result lies in the block of the tile over its edge, `e / 80000`, and that tile writes back. -/
theorem covered (i : S4x8x2000000.Idx) :
    ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 2000000 := (i 2).isLt
  obtain ⟨t, ht⟩ := idx_onto ⟨(i 2).val / 80000, by omega⟩
  have q0 : win0_2.index t (0 : Fin 3) = 0 := congrFun ht 0
  have q1 : win0_2.index t (1 : Fin 3) = 0 := congrFun ht 1
  have q2 : win0_2.index t (2 : Fin 3) = (i 2).val / 80000 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 8 ≤ (i 1).val ∧ (i 1).val < win0_2.index t (1 : Fin 3) * 8 + 8; omega
  | ⟨2, _⟩ => show win0_2.index t (2 : Fin 3) * 80000 ≤ (i 2).val ∧ (i 2).val < win0_2.index t (2 : Fin 3) * 80000 + 80000; omega

/-- THE RESULT ARRAY after the call is the mixing product of the coefficients and the edge weights the call found. -/
theorem final (c : Dev nD) : (dats m 0 c).arrAt 2 cfg0.N = Cert.Mix.mix (coef m c) (edges m c) :=
  (dats m 0 c).arrAt_eq_of_cover 2 (Cert.Mix.mix (coef m c) (edges m c)) (fun t _ => flushed_eq m c t) covered

/-! ## What the call finds -/

/-- The row softmax of the mixing weights, as ONE function: the reference's stage, which the kernel's host part
    computes by the same operations. -/
abbrev softmax (x : FVec Ideal S4x8 .f32) : FVec Ideal S4x8 .f32 := Cert.ReferenceIdeal.Read.val_main_v10 (F := Ideal) x

/-- The coefficients the call finds are the row softmax of the `weight` argument as launched. -/
theorem coef_eq (c : Dev nD) : coef m c = softmax (m ((c : Thread nD τ).loc main_arg1)) := by
  show V m c main_v10 = _
  dsimp only [Gen.V, Gen.hostOps0]
  after_results
  rfl

/-- The edge weights the call finds are the `edge_w` argument as launched. -/
theorem edges_eq (c : Dev nD) : edges m c = m ((c : Thread nD τ).loc main_arg0) := V_main_arg0 m c

/-! ## The run, read -/

/-- Every weakly fair execution of the kernel's program ends with the first result at the mixing product of the
    softmax of `weight` and `edge_w`, the second at that softmax, and the arguments unchanged. -/
theorem run : θ_run defs (onTc (τ := τ) (main (F := Ideal))) ⟨m, fun _ => 0, ρ⟩ fun r => ∀ c : Dev nD,
      r.2.mem ((c : Thread nD τ).loc main_v11)
        = Cert.Mix.mix (softmax (m ((c : Thread nD τ).loc main_arg1))) (m ((c : Thread nD τ).loc main_arg0))
      ∧ r.2.mem ((c : Thread nD τ).loc main_v10) = softmax (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(Value.post2 m r h c).trans ((final m c).trans (by rw [coef_eq, edges_eq])),
       ((h c).1 0).trans (((dats m 0 c).arrAt_in 0 rfl _).trans ((A_eq m c 0).trans (coef_eq m c))),
       Value.kept_main_arg0 m r h c,
       Value.kept_main_arg1 m r h c⟩)
    (run_main m ρ)

end Cert.KernelIdeal.MixValue

end
-- ==== Proof.RefMix.lean ====
/-
  The reference's last five operations are the relation-mixing product.

  After its row softmax has produced the coefficients `f = softmax(weight)` (a `[4, 8]` array, kept here as ONE
  function of `weight` and never opened), the reference lays `f` out as `[4, 8, 1]` and the edge weights `w` as
  `[1, 8, 2000000]`, repeats each along its unit axis to `[4, 8, 2000000]`, and multiplies entry by entry. Reading the
  two repeats back at `(c, r, e)` gives `f (c, r)` and `w (r, e)`: the product is `Cert.Mix.mix f w`.
-/
import proofs.«148289_j5111011083066_1_alg».proof.Proof.Gen.ReferenceIdeal.Read
import proofs.«148289_j5111011083066_1_alg».proof.Proof.Mix
import Idealize.ShloMosaic.Lib.ValueIdx

noncomputable section

namespace Cert.ReferenceIdeal.MixValue

open Cert.ReferenceIdeal Cert.ReferenceIdeal.Read Idealize.ShloMosaic Idealize.ShloMosaic.ValueIdx

/-- The coefficients: the reference's row softmax of the mixing weights, as one function. -/
abbrev coef (x1 : FVec Ideal S4x8 .f32) : FVec Ideal S4x8 .f32 := val_main_v10 (F := Ideal) x1

/-- Going back through the two repeats of the coefficients, `(c, r, e)` reads `(c, r)`. -/
theorem coef_index (i : S4x8x2000000.Idx) : idx_main_v11 (idx_main_v13 i) = ix2 (i 0 : Fin 4) (i 1 : Fin 8) :=
  funext fun a => Fin.ext (by match a with | ⟨0, _⟩ => rfl | ⟨1, _⟩ => rfl)

/-- Going back through the two repeats of the edge weights, `(c, r, e)` reads `(r, e)`. -/
theorem edge_index (i : S4x8x2000000.Idx) : idx_main_v12 (idx_main_v14 i) = ix2 (i 1 : Fin 8) (i 2 : Fin 2000000) :=
  funext fun a => Fin.ext (by match a with | ⟨0, _⟩ => rfl | ⟨1, _⟩ => rfl)

/-- The reference's product stage is the mixing product of its coefficients and the edge weights. -/
theorem product_eq_mix (x0 : FVec Ideal S8x2000000 .f32) (x1 : FVec Ideal S4x8 .f32) :
    val_main_v15 (F := Ideal) x0 x1 = Cert.Mix.mix (coef x1) x0 := by
  funext i
  rw [val_main_v15_apply, val_main_v13_apply, val_main_v11_apply, val_main_v14_apply, val_main_v12_apply,
    coef_index, edge_index]
  rfl

end Cert.ReferenceIdeal.MixValue

end
-- ==== Proof.lean ====
/- Relation-graph mixing: `out[c, r, e] = softmax(weight)[c, r] · edge_w[r, e]` and the softmax itself, for 4 output
   channels, 8 relation graphs and 2,000,000 edges.

   Both programs compute the coefficients `f = softmax(weight)` over the relations on the host, by the same fourteen
   operations (row maximum, subtract, exponential, row sum, divide); it is carried as ONE function of `weight` and never
   opened. The kernel then walks the edges in 25 tiles of 80,000: at each tile it multiplies `f[:, :, None]` by the
   tile's slab of edge weights `[None, :, :]` and stores the `[4, 8, 80000]` block. The reference repeats `f` and
   `edge_w` to `[4, 8, 2000000]` and multiplies once. Entry `(c, r, e)` is `f (c, r) · edge_w (r, e)` on both sides
   — one product of extended reals in the same operand order, so no law of arithmetic and no finiteness is used; the
   proof is about WHERE each entry comes from:
     * Proof/Mix.lean — the product as one function `mix f w` of the two arrays;
     * Proof/KernelBlock.lean — a tile's stored block is the block of `mix f w` over that tile (over the generated value
       leg's reading of the stored payload at an index);
     * Proof/KernelArray.lean — the tiles cover the result, so the array is `mix f w`; `f` is the host's softmax; the run;
     * Proof/RefMix.lean — the reference's product stage is `mix f w` (over the generated index-by-index reading);
   and below, the five claims. The idealization rewrote nothing, so `preserves` is `True`. -/
import proofs.«148289_j5111011083066_1_alg».proof.Defs
import proofs.«148289_j5111011083066_1_alg».proof.Proof.Gen.Kernel
import proofs.«148289_j5111011083066_1_alg».proof.Proof.Gen.Kernel.Skeleton
import proofs.«148289_j5111011083066_1_alg».proof.Proof.Gen.Kernel.Launch
import proofs.«148289_j5111011083066_1_alg».proof.Proof.Gen.Kernel.Points
import proofs.«148289_j5111011083066_1_alg».proof.Proof.Gen.Kernel.Frame
import proofs.«148289_j5111011083066_1_alg».proof.Proof.Gen.KernelIdeal
import proofs.«148289_j5111011083066_1_alg».proof.Proof.Gen.KernelIdeal.Skeleton
import proofs.«148289_j5111011083066_1_alg».proof.Proof.Gen.KernelIdeal.Launch
import proofs.«148289_j5111011083066_1_alg».proof.Proof.Gen.KernelIdeal.Points
import proofs.«148289_j5111011083066_1_alg».proof.Proof.Gen.KernelIdeal.Frame
import proofs.«148289_j5111011083066_1_alg».proof.Proof.Gen.ReferenceIdeal
import proofs.«148289_j5111011083066_1_alg».proof.Proof.Gen.Pre_finite_inputs
import proofs.«148289_j5111011083066_1_alg».proof.Proof.Gen.KernelIdeal.Value
import proofs.«148289_j5111011083066_1_alg».proof.Proof.Gen.ReferenceIdeal.Run
import proofs.«148289_j5111011083066_1_alg».proof.Proof.Gen.ReferenceIdeal.Read
import proofs.«148289_j5111011083066_1_alg».proof.Proof.Mix
import proofs.«148289_j5111011083066_1_alg».proof.Proof.KernelBlock
import proofs.«148289_j5111011083066_1_alg».proof.Proof.KernelArray
import proofs.«148289_j5111011083066_1_alg».proof.Proof.RefMix
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on `edge_w` and `weight`, both programs end with the first result at
    `mix (softmax weight) edge_w` and the second at `softmax weight`: the kernel by its tiles
    (`Cert.KernelIdeal.MixValue.run`), the reference by its generated run read stage by stage
    (`Cert.ReferenceIdeal.MixValue.product_eq_mix`). -/
theorem algebraic : Cert.algebraic_KernelIdeal_ReferenceIdeal := by
  intro m ρ m' ρ' _ hagree
  refine ⟨_, _, Cert.KernelIdeal.MixValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v15_eq, Cert.ReferenceIdeal.MixValue.product_eq_mix,
      (hagree c).1, (hagree c).2]
  · rw [Cert.ReferenceIdeal.Read.val_main_v10_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
